-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144x2 : Shape := ⟨2, ![262144, 2]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S262144x2 : S_.BroadcastsInDim S262144x2 (![] : Fin 0 → Fin S262144x2.rank)
  reducesTo_S262144x2_S_d0_1 : S262144x2.ReducesTo [0, 1] S_

variable [Facts]

def fn_part1 {F : FTy → Type} [FloatOps F] (main_v13 : IVec S_ 1) (main_v16 : IVec S262144x2 1) : IVec S_ 1 :=
  let main_c_5 : IVec S_ 1 := constantI S_ 1 1#1
  let main_v17 : IVec S_ 1 := (fun x v => Host.reduce IntOp.andi x v reducesTo_S262144x2_S_d0_1 h_S_) main_v16 main_c_5
  let main_v18 : IVec S_ 1 := andi main_v13 main_v17
  main_v18

def fn {F : FTy → Type} [FloatOps F] (main_arg0 : FVec F S262144x128 .f32) (main_arg1 : FVec F S262144x128 .f32) (main_arg2 : FVec F S262144x128 .f32) (main_arg3 : FVec F S262144x2 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S262144x128 .f32 := Host.absf main_arg2
  let main_cst_2 : FVec F S_ .f32 := constant S_ .f32 0x7F800000#32
  let main_v10 : FVec F S262144x128 .f32 := broadcastInDim S262144x128 ![] bcast_S_S262144x128 main_cst_2
  let main_v11 : IVec S262144x128 1 := cmpf .olt main_v9 main_v10
  let main_c_3 : IVec S_ 1 := constantI S_ 1 1#1
  let main_v12 : IVec S_ 1 := (fun x v => Host.reduce IntOp.andi x v reducesTo_S262144x128_S_d0_1 h_S_) main_v11 main_c_3
  let main_v13 : IVec S_ 1 := andi main_v8 main_v12
  let main_v14 : FVec F S262144x2 .f32 := Host.absf main_arg3
  let main_cst_4 : FVec F S_ .f32 := constant S_ .f32 0x7F800000#32
  let main_v15 : FVec F S262144x2 .f32 := broadcastInDim S262144x2 ![] bcast_S_S262144x2 main_cst_4
  let main_v16 : IVec S262144x2 1 := cmpf .olt main_v14 main_v15
  fn_part1 (F := F) main_v13 main_v16
-- ==== Kernel.lean ====
abbrev S262144x128 : Shape := ⟨2, ![262144, 128]⟩
abbrev S262144x2 : Shape := ⟨2, ![262144, 2]⟩
abbrev S1x1 : Shape := ⟨2, ![1, 1]⟩
abbrev S4096x128 : Shape := ⟨2, ![4096, 128]⟩
abbrev S4096x2 : Shape := ⟨2, ![4096, 2]⟩
abbrev S4096 : Shape := ⟨1, ![4096]⟩
abbrev S4096x1 : Shape := ⟨2, ![4096, 1]⟩
abbrev S1 : Shape := ⟨1, ![1]⟩
abbrev S_ : Shape := ⟨0, ![]⟩

abbrev nBuf : Space → Nat
  | .hbm => 6
  | .vmem => 10
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S262144x2, .f32⟩
  | .hbm, ⟨4, _⟩ => ⟨S1x1, .f32⟩
  | .hbm, ⟨5, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x2, .f32⟩
  | .local _ .vmem, ⟨7, _⟩ => ⟨S4096x2, .f32⟩
  | .local _ .vmem, ⟨8, _⟩ => ⟨S1x1, .f32⟩
  | .local _ .vmem, ⟨9, _⟩ => ⟨S1x1, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v45 : BitVec 1 := Scalar.cmpi .eq arg0 c63_i32
  let v46 : BitVec 32 := Scalar.extui v45
  let c0_i32_18 : BitVec 32 := 0#32
  let v47 : BitVec 1 := Scalar.cmpi .ne v46 c0_i32_18
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x128_S4096x128_0_0 : ∀ a, (![0, 0] : Fin 2 → Nat) a + S4096x128.size a ≤ S4096x128.size a
  h_S4096x128 : 0 < S4096x128.numel
  reduces_S4096x128_S4096 : S4096x128.Reduces [1] S4096
  shapeCasts_S4096_S4096x1 : S4096.ShapeCasts S4096x1
  inb_S4096x2_S4096x2_0_0 : ∀ a, (![0, 0] : Fin 2 → Nat) a + S4096x2.size a ≤ S4096x2.size a
  h_S4096x2 : 0 < S4096x2.numel
  slices_S4096x2_o0_0_S4096x1 : S4096x2.Slices ![0, 0] S4096x1
  slices_S4096x2_o0_1_S4096x1 : S4096x2.Slices ![0, 1] S4096x1
  reduces_S4096x1_S1 : S4096x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .f32 = 32 ∨ (Rect.block (s := S262144x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S262144x128.size a
  hwx0_2 : ∀ i : grid0.Coords, EltTy.bits .f32 = 32 ∨ (Rect.block (s := S262144x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x2.size a ≤ S262144x2.size a
  hwx0_3 : ∀ i : grid0.Coords, EltTy.bits .f32 = 32 ∨ (Rect.block (s := S262144x2) S4096x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S262144x128 : Shape := ⟨2, ![262144, 128]⟩
abbrev S262144x2 : Shape := ⟨2, ![262144, 2]⟩
abbrev S262144x1 : Shape := ⟨2, ![262144, 1]⟩
abbrev S262144 : Shape := ⟨1, ![262144]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S262144x2, .f32⟩
  | .hbm, ⟨4, _⟩ => ⟨S262144x1, .f32⟩
  | .hbm, ⟨5, _⟩ => ⟨S262144, .f32⟩
  | .hbm, ⟨6, _⟩ => ⟨S262144, .f32⟩
  | .hbm, ⟨7, _⟩ => ⟨S262144, .f32⟩
  | .hbm, ⟨8, _⟩ => ⟨S262144x1, .f32⟩
  | .hbm, ⟨9, _⟩ => ⟨S262144, .f32⟩
  | .hbm, ⟨10, _⟩ => ⟨S262144, .f32⟩
  | .hbm, ⟨11, _⟩ => ⟨S262144, .f32⟩
  | .hbm, ⟨12, _⟩ => ⟨S262144x128, .f32⟩
  | .hbm, ⟨13, _⟩ => ⟨S262144x128, .f32⟩
  | .hbm, ⟨14, _⟩ => ⟨S_, .f32⟩
  | .hbm, ⟨15, _⟩ => ⟨S262144, .f32⟩
  | .hbm, ⟨16, _⟩ => ⟨S262144, .f32⟩
  | .hbm, ⟨17, _⟩ => ⟨S262144, .f32⟩
  | .hbm, ⟨18, _⟩ => ⟨S262144, .f32⟩
  | .hbm, ⟨19, _⟩ => ⟨S262144x128, .f32⟩
  | .hbm, ⟨20, _⟩ => ⟨S262144x128, .f32⟩
  | .hbm, ⟨21, _⟩ => ⟨S_, .f32⟩
  | .hbm, ⟨22, _⟩ => ⟨S262144, .f32⟩
  | .hbm, ⟨23, _⟩ => ⟨S262144, .f32⟩
  | .hbm, ⟨24, _⟩ => ⟨S262144, .f32⟩
  | .hbm, ⟨25, _⟩ => ⟨S262144, .f32⟩
  | .hbm, ⟨26, _⟩ => ⟨S262144, .f32⟩
  | .hbm, ⟨27, _⟩ => ⟨S262144, .f32⟩
  | .hbm, ⟨28, _⟩ => ⟨S262144, .f32⟩
  | .hbm, ⟨29, _⟩ => ⟨S262144, .f32⟩
  | .hbm, ⟨30, _⟩ => ⟨S262144, .f32⟩
  | .hbm, ⟨31, _⟩ => ⟨S262144, .f32⟩
  | .hbm, ⟨32, _⟩ => ⟨S262144, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call1_v0 : Ref sig .tc := ⟨.hbm, 20, rfl⟩
abbrev main_call1_cst : Ref sig .tc := ⟨.hbm, 21, rfl⟩
abbrev main_call1_v1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_cst_0 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  slices_S262144x2_S262144x1_0_0 : S262144x2.Slices ![0, 0] S262144x1
  shapeCasts_S262144x1_S262144 : S262144x1.ShapeCasts S262144
  slices_S262144x2_S262144x1_0_1 : S262144x2.Slices ![0, 1] S262144x1
  reducesTo_S262144x128_S262144_d1 : S262144x128.ReducesTo [1] S262144
  h_S_ : 0 < S_.numel
  reducesTo_S262144_S_d0 : S262144.ReducesTo [0] S_

variable [Facts₀]

class Facts : Prop extends Facts₀ where

variable [Facts]
-- ==== Proof.Pieces.lean ====
/-
  What one grid point leaves in the accumulator and in the output block, as values.

  The accumulator is one number. At the first point it is reset to zero and then the block's sum is added; at every
  later point the block's sum is added to what the point before left; at the last point the output block receives
  the accumulator divided by the batch size.
-/
import proofs.«164572_j27144193311431_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- A later point that is not the last: the accumulator `xs0` plus the block's sum. -/
theorem acc_B (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x2 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S4096x128 .f32) (x1 : Vec F S4096x128 .f32) (x2 : Vec F S4096x128 .f32) (x3 : Vec F S4096x2 .f32) (xs0 : Vec F S1x1 .f32) :
    sout0_B_0 c i arg1 harg1 arg2 harg2 arg3 harg3 arg4 harg4 arg5 harg5 arg6 harg6 hc0 hc1 x0 x1 x2 x3 xs0 = k0_pay1 (k0_pay4 x0 x1 x2 x3) xs0 := by
  unfold sout0_B_0
  rw [View.read_writes_eq_canon _ _ _ (scover0_B_0 c i arg1 harg1 arg2 harg2 arg3 harg3 arg4 harg4 arg5 harg5 arg6 harg6 hc0 hc1 x0 x1 x2 x3 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, View.ld_unit_zero (S := S4096x128) hz, View.ld_unit_zero (S := S4096x2) hz, View.ld_unit_zero (S := S1x1) hz]

/-- The first point: the accumulator is reset to the zero block, then the block's sum is added. -/
theorem acc_A (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x2 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S4096x128 .f32) (x1 : Vec F S4096x128 .f32) (x2 : Vec F S4096x128 .f32) (x3 : Vec F S4096x2 .f32) :
    sout0_A_0 c i arg1 harg1 arg2 harg2 arg3 harg3 arg4 harg4 arg5 harg5 arg6 harg6 hc0 hc1 x0 x1 x2 x3 = k0_pay1 (k0_pay4 x0 x1 x2 x3) (k0_pay3 (F := F)) := by
  unfold sout0_A_0
  rw [View.read_writes_eq_canon _ _ _ (scover0_A_0 c i arg1 harg1 arg2 harg2 arg3 harg3 arg4 harg4 arg5 harg5 arg6 harg6 hc0 hc1 x0 x1 x2 x3)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, View.ld_unit_zero (S := S4096x128) hz, View.ld_unit_zero (S := S4096x2) hz, View.ld_unit_zero (S := S1x1) hz]

/-- The last point, the accumulator: `xs0` plus the block's sum, as at the other later points. -/
theorem acc_C (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x2 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S4096x128 .f32) (x1 : Vec F S4096x128 .f32) (x2 : Vec F S4096x128 .f32) (x3 : Vec F S4096x2 .f32) (xs0 : Vec F S1x1 .f32) :
    sout0_C_0 c i arg1 harg1 arg2 harg2 arg3 harg3 arg4 harg4 arg5 harg5 arg6 harg6 hc0 hc1 x0 x1 x2 x3 xs0 = k0_pay1 (k0_pay4 x0 x1 x2 x3) xs0 := by
  unfold sout0_C_0
  rw [View.read_writes_eq_canon _ _ _ (scover0_C_0 c i arg1 harg1 arg2 harg2 arg3 harg3 arg4 harg4 arg5 harg5 arg6 harg6 hc0 hc1 x0 x1 x2 x3 xs0)]
  unfold kernelRun0_C
  dsimp only
  sl_unfold_words
  rw [View.canon_unit_zero hz]
  simp only [View.readAt_eq_ld, harg1.read_unread, harg2.read_unread, harg3.read_unread, harg4.read_unread, harg5.read_unread, harg6.read_unread, View.ld_unit_zero (S := S4096x128) hz, View.ld_unit_zero (S := S4096x2) hz, View.ld_unit_zero (S := S1x1) hz]

/-- The last point, the output block: the accumulator it has just updated, divided by the batch size. -/
theorem out_C (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x2 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S4096x128 .f32) (x1 : Vec F S4096x128 .f32) (x2 : Vec F S4096x128 .f32) (x3 : Vec F S4096x2 .f32) (xs0 : Vec F S1x1 .f32) :
    out0_C_4 c i arg1 harg1 arg2 harg2 arg3 harg3 arg4 harg4 arg5 harg5 arg6 harg6 hc0 hc1 x0 x1 x2 x3 xs0 = k0_pay2 (k0_pay1 (k0_pay4 x0 x1 x2 x3) xs0) := by
  unfold out0_C_4
  rw [View.read_writes_eq_canon _ _ _ (cover0_C_4 c i arg1 harg1 arg2 harg2 arg3 harg3 arg4 harg4 arg5 harg5 arg6 harg6 hc0 hc1 x0 x1 x2 x3 xs0)]
  unfold kernelRun0_C
  dsimp only
  sl_unfold_words
  rw [View.canon_unit_zero hz]
  simp only [View.readCov_unit_zero (S := S1x1) _ hz, View.readAt_eq_ld, harg1.read_unread, harg2.read_unread, harg3.read_unread, harg4.read_unread, harg5.read_unread, harg6.read_unread, View.ld_unit_zero (S := S4096x128) hz, View.ld_unit_zero (S := S4096x2) hz, View.ld_unit_zero (S := S1x1) hz]

end Cert.KernelIdeal.Acc

end
-- ==== Proof.Loss.lean ====
/-
  The triplet-distance loss as one function of its four arrays, and the one law of sums the two programs differ by.

  For a sample (a row r of the batch of 262144) with embeddings a, p, n in R^128 and ground-truth distances
  (g0, g1):   D0 = exp(-g0),  D1 = exp(-g1),  v0 = exp(-sqrt(sum_l (a_l - p_l)^2)),  v1 = exp(-sqrt(sum_l (a_l - n_l)^2)),
  and the sample's term is  D0 * (D0 - v0)^2 + D1 * (D1 - v1)^2  (each square written as a product).
  The loss is the sum of the terms over all rows, divided by the batch size.

  The sum over the 262144 rows is the sum over the 64 consecutive blocks of 4096 rows of each block's sum: addition
  on the extended reals is commutative and associative, so this holds of every input, finite or not.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

open scoped BigOperators

namespace Cert.Loss

open Idealize.ShloMosaic Idealize.ShloMosaic.ValueIdx

/-- One sample's term, from its three embedding rows and its two ground-truth distances. -/
def sample (a p n : Fin 128 → EReal) (g0 g1 : EReal) : EReal :=
  Ideal.exp (-g0) * ((Ideal.exp (-g0) - Ideal.exp (-(Ideal.sqrt (∑ l, (a l - p l) * (a l - p l)))))
      * (Ideal.exp (-g0) - Ideal.exp (-(Ideal.sqrt (∑ l, (a l - p l) * (a l - p l))))))
    + Ideal.exp (-g1) * ((Ideal.exp (-g1) - Ideal.exp (-(Ideal.sqrt (∑ l, (a l - n l) * (a l - n l)))))
      * (Ideal.exp (-g1) - Ideal.exp (-(Ideal.sqrt (∑ l, (a l - n l) * (a l - n l))))))

/-- Row `r`'s term, of the whole arrays. -/
def term (A P N : (⟨2, ![262144, 128]⟩ : Shape).Idx → EReal) (G : (⟨2, ![262144, 2]⟩ : Shape).Idx → EReal)
    (r : Fin 262144) : EReal :=
  sample (fun l => A (ix2 r l)) (fun l => P (ix2 r l)) (fun l => N (ix2 r l)) (G (ix2 r 0)) (G (ix2 r 1))

/-- The batch size as the float the programs divide by (the f32 pattern of 262144.0; never evaluated). -/
abbrev batch : EReal := Ideal.ofBits .f32 0x48800000#32

/-- The loss: the mean of the rows' terms. -/
def loss (A P N : (⟨2, ![262144, 128]⟩ : Shape).Idx → EReal) (G : (⟨2, ![262144, 2]⟩ : Shape).Idx → EReal) : EReal :=
  Ideal.div (∑ r, term A P N G r) batch

/-- Row `k` of block `t` is row `4096 t + k` of the batch. -/
abbrev rowAt (t : Fin 64) (k : Fin 4096) : Fin 262144 :=
  ⟨4096 * t.val + k.val, by have := t.isLt; have := k.isLt; omega⟩

/-- A sum over the batch is the sum over the 64 blocks of each block's 4096 rows. -/
theorem sum_blocks {M : Type*} [AddCommMonoid M] (f : Fin 262144 → M) :
    ∑ r, f r = ∑ t : Fin 64, ∑ k : Fin 4096, f (rowAt t k) := by
  have e : ∑ r : Fin (64 * 4096), f r = ∑ q : Fin 64 × Fin 4096, f (finProdFinEquiv q) :=
    (Equiv.sum_comp (finProdFinEquiv (m := 64) (n := 4096)) f).symm
  refine e.trans ((Fintype.sum_prod_type _).trans ?_)
  refine Finset.sum_congr rfl fun t _ => Finset.sum_congr rfl fun k _ => congrArg f (Fin.ext ?_)
  show k.val + 4096 * t.val = 4096 * t.val + k.val
  omega

/-- The blocks' sums accumulated in point order: after point `n` the first `n + 1` blocks' sums. -/
def partialSum (s : Fin 64 → EReal) (n : ℕ) : EReal :=
  ∑ t ∈ Finset.range (n + 1), if h : t < 64 then s ⟨t, h⟩ else 0

theorem partialSum_zero (s : Fin 64 → EReal) : partialSum s 0 = s 0 := by
  unfold partialSum
  rw [Finset.sum_range_one, dif_pos (by decide : 0 < 64)]
  rfl

theorem partialSum_succ (s : Fin 64 → EReal) (n : ℕ) (h : n + 1 < 64) :
    partialSum s (n + 1) = partialSum s n + s ⟨n + 1, h⟩ := by
  unfold partialSum
  rw [Finset.sum_range_succ _ (n + 1), dif_pos h]

/-- After the last point it is the sum over all the blocks. -/
theorem partialSum_last (s : Fin 64 → EReal) : partialSum s 63 = ∑ t, s t := by
  unfold partialSum
  rw [← Fin.sum_univ_eq_sum_range (fun t => if h : t < 64 then s ⟨t, h⟩ else 0) 64]
  exact Finset.sum_congr rfl fun t _ => by rw [dif_pos t.isLt]

end Cert.Loss

end
-- ==== Proof.BlockOps.lean ====
/-
  The block operations of the loss read at an index, on the extended reals.

  A block is 4096 consecutive rows. Read at row k of a block: the squared distance of two embedding blocks is the sum
  over the 128 lanes of the squared differences; a column of the ground-truth block is that column's entry; and the
  block's contribution to the loss is the sum over its 4096 rows.
-/
import proofs.«164572_j27144193311431_1_alg».proof.Proof.Loss
import Idealize.ShloMosaic.Lib.Pipeline.Value

noncomputable section

open scoped BigOperators

namespace Cert.Loss

open Idealize.ShloMosaic Idealize.ShloMosaic.ValueIdx

/-- The zero pattern minus x is -x: a negation written as a subtraction from zero. -/
theorem zero_word_sub (x : EReal) : Ideal.ofBits .f32 0x00000000#32 - x = -x := by
  rw [Ideal.ofBits_zero_f32, zero_sub]

/-- The zero pattern plus x is x. -/
theorem zero_word_add (x : EReal) : Ideal.ofBits .f32 0x00000000#32 + x = x := by
  rw [Ideal.ofBits_zero_f32, zero_add]

/-- The lane sum of a [4096,128] block, kept as a column, read at row k. -/
theorem laneSum_row (v : FVec Ideal ⟨2, ![4096, 128]⟩ .f32)
    (hr : (⟨2, ![4096, 128]⟩ : Shape).Reduces [1] ⟨1, ![4096]⟩)
    (hc : (⟨1, ![4096]⟩ : Shape).ShapeCasts ⟨2, ![4096, 1]⟩) (k : Fin 4096) :
    shapeCast ⟨2, ![4096, 1]⟩ (multiReduction .add [1] ⟨1, ![4096]⟩ v 0x00000000#32 hr (.inl rfl) rfl) hc (ix2 k 0)
      = ∑ l : Fin 128, v (ix2 k l) := by
  rw [shapeCast_apply _ hc (ix2 k 0) (ix1 k) (by rw [Shape.rowMajor_val_one, Shape.rowMajor_val_two]; show k.val = k.val * 1 + 0; omega)]
  refine (Ideal.multiReduction_add_single v 0x00000000#32 hr (.inl rfl) rfl (ix1 k)).trans ?_
  refine Finset.sum_congr rfl fun l _ => congrArg v ?_
  funext a
  match a with
  | ⟨0, _⟩ => rfl
  | ⟨1, _⟩ => rfl

/-- Column `j` of a [4096,2] block, kept as a column, read at row k. -/
theorem column_row (g : FVec Ideal ⟨2, ![4096, 2]⟩ .f32) (j : Fin 2)
    (hs : (⟨2, ![4096, 2]⟩ : Shape).Slices ![0, j.val] ⟨2, ![4096, 1]⟩) (k : Fin 4096) :
    extractStridedSlice ⟨2, ![4096, 1]⟩ ![0, j.val] g hs (ix2 k 0) = g (ix2 k j) :=
  extractStridedSlice_apply _ g hs (ix2 k 0) (ix2 k j) fun a => by
    match a with
    | ⟨0, _⟩ => show k.val = 0 + k.val; omega
    | ⟨1, _⟩ => show j.val = j.val + 0; omega

/-- The sum over the rows of a [4096,1] column, kept as a [1,1] block, at its one index. -/
theorem rowSum_apply (v : FVec Ideal ⟨2, ![4096, 1]⟩ .f32)
    (hr : (⟨2, ![4096, 1]⟩ : Shape).Reduces [0] ⟨1, ![1]⟩)
    (hc : (⟨1, ![1]⟩ : Shape).ShapeCasts ⟨2, ![1, 1]⟩) (j : (⟨2, ![1, 1]⟩ : Shape).Idx) :
    shapeCast ⟨2, ![1, 1]⟩ (multiReduction .add [0] ⟨1, ![1]⟩ v 0x00000000#32 hr (.inl rfl) rfl) hc j
      = ∑ k : Fin 4096, v (ix2 k 0) := by
  have hj0 : (j 0).val = 0 := by have h : (j 0).val < 1 := (j 0).isLt; omega
  have hj1 : (j 1).val = 0 := by have h : (j 1).val < 1 := (j 1).isLt; omega
  rw [shapeCast_apply _ hc j (ix1 0) (by rw [Shape.rowMajor_val_one, Shape.rowMajor_val_two, hj0, hj1]; rfl)]
  refine (Ideal.multiReduction_add_single v 0x00000000#32 hr (.inl rfl) rfl (ix1 0)).trans ?_
  refine Finset.sum_congr rfl fun k _ => congrArg v ?_
  funext a
  match a with
  | ⟨0, _⟩ => rfl
  | ⟨1, _⟩ => rfl

end Cert.Loss

end
-- ==== Proof.Payload.lean ====
/-
  The kernel's arithmetic at a point, read at an index on the extended reals.

  Over a block of 4096 rows the body computes, row by row, the sample's term (its negations written as subtractions
  from zero); it adds the block's sum of these to the accumulator; at the end it divides by the batch size.
-/
import proofs.«164572_j27144193311431_1_alg».proof.Proof.BlockOps
import proofs.«164572_j27144193311431_1_alg».proof.Proof.Gen.KernelIdeal.Skeleton

noncomputable section

open scoped BigOperators

namespace Cert.KernelIdeal.Acc

open Cert.KernelIdeal Cert.KernelIdeal.Gen Idealize.ShloMosaic Idealize.ShloMosaic.ValueIdx

theorem exp_at {s : Shape} (v : FVec Ideal s .f32) (i : s.Idx) : Idealize.ShloMosaic.exp v i = Ideal.exp (v i) := rfl
theorem sqrt_at {s : Shape} (v : FVec Ideal s .f32) (i : s.Idx) : Idealize.ShloMosaic.sqrt v i = Ideal.sqrt (v i) := rfl
theorem zero_at : Scalar.ofBits (F := Ideal) .f32 0x00000000#32 = Ideal.ofBits .f32 0x00000000#32 := rfl

/-- The per-row vector of a block, at row k, is the sample's term of the block's row k. -/
theorem term_row (x0 x1 x2 : Vec Ideal S4096x128 .f32) (x3 : Vec Ideal S4096x2 .f32) (k : Fin 4096) :
    k0_pay4 (F := Ideal) x0 x1 x2 x3 (ix2 k 0)
      = Cert.Loss.sample (fun l => x0 (ix2 k l)) (fun l => x1 (ix2 k l)) (fun l => x2 (ix2 k l)) (x3 (ix2 k 0)) (x3 (ix2 k 1)) := by
  have e01 := Cert.Loss.laneSum_row (mulf (subf x0 x1) (subf x0 x1)) reduces_S4096x128_S4096 shapeCasts_S4096_S4096x1 k
  have e02 := Cert.Loss.laneSum_row (mulf (subf x0 x2) (subf x0 x2)) reduces_S4096x128_S4096 shapeCasts_S4096_S4096x1 k
  have g0 : extractStridedSlice S4096x1 ![0, 0] x3 slices_S4096x2_o0_0_S4096x1 (ix2 k 0) = x3 (ix2 k 0) :=
    Cert.Loss.column_row x3 0 slices_S4096x2_o0_0_S4096x1 k
  have g1 : extractStridedSlice S4096x1 ![0, 1] x3 slices_S4096x2_o0_1_S4096x1 (ix2 k 0) = x3 (ix2 k 1) :=
    Cert.Loss.column_row x3 1 slices_S4096x2_o0_1_S4096x1 k
  unfold k0_pay4
  dsimp only
  simp only [addf_apply, mulf_apply, subf_apply, exp_at, sqrt_at, broadcast_apply, zero_at, Cert.Loss.zero_word_sub]
  rw [g0, g1, e01, e02]
  simp only [mulf_apply, subf_apply]
  rfl

/-- The accumulator's update at its one index: the old value plus the block's sum. -/
theorem update_apply (v37 : FVec Ideal S4096x1 .f32) (v38 : Vec Ideal S1x1 .f32) (j : S1x1.Idx) :
    k0_pay1 (F := Ideal) v37 v38 j = v38 j + ∑ k : Fin 4096, v37 (ix2 k 0) := by
  unfold k0_pay1
  dsimp only
  rw [shapeCast_self]
  exact congrArg (v38 j + ·) (Cert.Loss.rowSum_apply v37 reduces_S4096x1_S1 shapeCasts_S1_S1x1 j)

/-- The reset value is the zero pattern. -/
theorem reset_apply (j : S1x1.Idx) : k0_pay3 (F := Ideal) j = Ideal.ofBits .f32 0x00000000#32 := by
  unfold k0_pay3
  rw [shapeCast_self]
  rfl

/-- The final division at its one index. -/
theorem mean_apply (v48 : Vec Ideal S1x1 .f32) (j : S1x1.Idx) :
    k0_pay2 (F := Ideal) v48 j = Ideal.div (v48 j) Cert.Loss.batch := rfl

end Cert.KernelIdeal.Acc

end
-- ==== Proof.Running.lean ====
/-
  The accumulator after each point is the sum of the blocks met so far.

  Point t reads block t of each array: rows 4096 t .. 4096 t + 4095. By induction on the point, the accumulator after
  point n holds the sum of the first n + 1 blocks' sums of sample terms.
-/
import proofs.«164572_j27144193311431_1_alg».proof.Proof.Pieces
import proofs.«164572_j27144193311431_1_alg».proof.Proof.Payload

noncomputable section

open scoped BigOperators

namespace Cert.KernelIdeal.Acc

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The four argument arrays as the region finds them. -/
abbrev arrA (c : Dev nD) : Vec Ideal S262144x128 .f32 := V m c main_arg0
abbrev arrP (c : Dev nD) : Vec Ideal S262144x128 .f32 := V m c main_arg1
abbrev arrN (c : Dev nD) : Vec Ideal S262144x128 .f32 := V m c main_arg2
abbrev arrG (c : Dev nD) : Vec Ideal S262144x2 .f32 := V m c main_arg3

/-- Their blocks at point t. -/
abbrev blkA (c : Dev nD) (t : Fin cfg0.N) : Vec Ideal S4096x128 .f32 := iblk m c 0 t
abbrev blkP (c : Dev nD) (t : Fin cfg0.N) : Vec Ideal S4096x128 .f32 := iblk m c 1 t
abbrev blkN (c : Dev nD) (t : Fin cfg0.N) : Vec Ideal S4096x128 .f32 := iblk m c 2 t
abbrev blkG (c : Dev nD) (t : Fin cfg0.N) : Vec Ideal S4096x2 .f32 := iblk m c 3 t

/-- A point of the grid as a block number. -/
abbrev blockOf (t : Fin cfg0.N) : Fin 64 := ⟨t.val, lt_of_lt_of_eq t.isLt (show cfg0.N = 64 from N_0)⟩

/-- Every window's block index at point t is (t, 0). -/
theorem index_facts : ∀ t : Fin cfg0.N,
    (win0_0.index t 0 = t.val ∧ win0_0.index t 1 = 0) ∧ (win0_1.index t 0 = t.val ∧ win0_1.index t 1 = 0)
      ∧ (win0_2.index t 0 = t.val ∧ win0_2.index t 1 = 0) ∧ (win0_3.index t 0 = t.val ∧ win0_3.index t 1 = 0) :=
  (by decide +kernel : ∀ t : Fin grid0.N,
    (win0_0.index t 0 = t.val ∧ win0_0.index t 1 = 0) ∧ (win0_1.index t 0 = t.val ∧ win0_1.index t 1 = 0)
      ∧ (win0_2.index t 0 = t.val ∧ win0_2.index t 1 = 0) ∧ (win0_3.index t 0 = t.val ∧ win0_3.index t 1 = 0))

/-- Row k, lane l of block t of the anchors is row 4096 t + k, lane l of the array. -/
theorem blkA_apply (c : Dev nD) (t : Fin cfg0.N) (k : Fin 4096) (l : Fin 128) :
    blkA m c t (ix2 k l) = arrA m c (ix2 (Cert.Loss.rowAt (blockOf t) k) l) := by
  have hi := (index_facts t).1
  unfold blkA iblk
  rw [View.read_apply]
  show V m c main_arg0 _ = V m c main_arg0 _
  congr 1
  funext a
  apply Fin.ext
  match a with
  | ⟨0, _⟩ => show win0_0.index t 0 * 4096 + 1 * k.val = 4096 * t.val + k.val; rw [hi.1]; omega
  | ⟨1, _⟩ => show win0_0.index t 1 * 128 + 1 * l.val = l.val; rw [hi.2]; omega

theorem blkP_apply (c : Dev nD) (t : Fin cfg0.N) (k : Fin 4096) (l : Fin 128) :
    blkP m c t (ix2 k l) = arrP m c (ix2 (Cert.Loss.rowAt (blockOf t) k) l) := by
  have hi := (index_facts t).2.1
  unfold blkP iblk
  rw [View.read_apply]
  show V m c main_arg1 _ = V m c main_arg1 _
  congr 1
  funext a
  apply Fin.ext
  match a with
  | ⟨0, _⟩ => show win0_1.index t 0 * 4096 + 1 * k.val = 4096 * t.val + k.val; rw [hi.1]; omega
  | ⟨1, _⟩ => show win0_1.index t 1 * 128 + 1 * l.val = l.val; rw [hi.2]; omega

theorem blkN_apply (c : Dev nD) (t : Fin cfg0.N) (k : Fin 4096) (l : Fin 128) :
    blkN m c t (ix2 k l) = arrN m c (ix2 (Cert.Loss.rowAt (blockOf t) k) l) := by
  have hi := (index_facts t).2.2.1
  unfold blkN iblk
  rw [View.read_apply]
  show V m c main_arg2 _ = V m c main_arg2 _
  congr 1
  funext a
  apply Fin.ext
  match a with
  | ⟨0, _⟩ => show win0_2.index t 0 * 4096 + 1 * k.val = 4096 * t.val + k.val; rw [hi.1]; omega
  | ⟨1, _⟩ => show win0_2.index t 1 * 128 + 1 * l.val = l.val; rw [hi.2]; omega

theorem blkG_apply (c : Dev nD) (t : Fin cfg0.N) (k : Fin 4096) (j : Fin 2) :
    blkG m c t (ix2 k j) = arrG m c (ix2 (Cert.Loss.rowAt (blockOf t) k) j) := by
  have hi := (index_facts t).2.2.2
  unfold blkG iblk
  rw [View.read_apply]
  show V m c main_arg3 _ = V m c main_arg3 _
  congr 1
  funext a
  apply Fin.ext
  match a with
  | ⟨0, _⟩ => show win0_3.index t 0 * 4096 + 1 * k.val = 4096 * t.val + k.val; rw [hi.1]; omega
  | ⟨1, _⟩ => show win0_3.index t 1 * 2 + 1 * j.val = j.val; rw [hi.2]; omega

/-- The sum of the sample terms of block b's rows. -/
def blockSum (c : Dev nD) (b : Fin 64) : EReal :=
  ∑ k : Fin 4096, Cert.Loss.term (arrA m c) (arrP m c) (arrN m c) (arrG m c) (Cert.Loss.rowAt b k)

/-- What point t adds to the accumulator is block t's sum. -/
theorem point_sum (c : Dev nD) (t : Fin cfg0.N) :
    ∑ k : Fin 4096, k0_pay4 (F := Ideal) (blkA m c t) (blkP m c t) (blkN m c t) (blkG m c t) (ix2 k 0)
      = blockSum m c (blockOf t) := by
  unfold blockSum
  refine Finset.sum_congr rfl fun k _ => ?_
  rw [term_row]
  unfold Cert.Loss.term
  simp only [blkA_apply, blkP_apply, blkN_apply, blkG_apply]

/-- The accumulator after point n is the sum of the first n + 1 blocks' sums. -/
theorem acc_eq (c : Dev nD) : ∀ (n : ℕ) (hn : n < cfg0.N),
    (outsAt0 m c n hn).2 = fun _ => Cert.Loss.partialSum (blockSum m c) n
  | 0, hn => by
    rw [outsAt0_A m c ⟨0, hn⟩ (Nat.zero_mod _) (by dsimp only; omega)]
    dsimp only
    refine (acc_A (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) _ _ (blkA m c ⟨0, hn⟩) (blkP m c ⟨0, hn⟩) (blkN m c ⟨0, hn⟩) (blkG m c ⟨0, hn⟩)).trans ?_
    funext j
    rw [update_apply, reset_apply, Cert.Loss.zero_word_add, Cert.Loss.partialSum_zero]
    exact point_sum m c ⟨0, hn⟩
  | n + 1, hn => by
    have hN : cfg0.N = 64 := N_0
    have h0 : ¬(⟨n + 1, hn⟩ : Fin cfg0.N).val % 64 = 0 := by dsimp only; omega
    have ih := acc_eq c n (Nat.lt_of_succ_lt hn)
    by_cases h1 : (⟨n + 1, hn⟩ : Fin cfg0.N).val % 64 = 63
    · rw [outsAt0_C m c ⟨n + 1, hn⟩ h0 h1]
      dsimp only
      refine (acc_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) _ _ (blkA m c ⟨n + 1, hn⟩) (blkP m c ⟨n + 1, hn⟩) (blkN m c ⟨n + 1, hn⟩) (blkG m c ⟨n + 1, hn⟩) _).trans ?_
      funext j
      rw [update_apply, Cert.Loss.partialSum_succ _ n (by omega), point_sum]
      show (outsAt0 m c n _).2 j + _ = _
      rw [ih]
    · rw [outsAt0_B m c ⟨n + 1, hn⟩ h0 h1]
      dsimp only
      refine (acc_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) _ _ (blkA m c ⟨n + 1, hn⟩) (blkP m c ⟨n + 1, hn⟩) (blkN m c ⟨n + 1, hn⟩) (blkG m c ⟨n + 1, hn⟩) _).trans ?_
      funext j
      rw [update_apply, Cert.Loss.partialSum_succ _ n (by omega), point_sum]
      show (outsAt0 m c n _).2 j + _ = _
      rw [ih]

end Cert.KernelIdeal.Acc

end
-- ==== Proof.KernelValue.lean ====
/-
  The kernel's result is the loss.

  Only the last point writes the output block back; there the block holds the accumulator — the sum of all 64 blocks'
  sums, which is the sum over all rows — divided by the batch size. The one block is the whole [1,1] result array, and
  the reshape after the region reads its one entry as the scalar result.
-/
import proofs.«164572_j27144193311431_1_alg».proof.Proof.Running

noncomputable section

open scoped BigOperators

namespace Cert.KernelIdeal.Acc

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The loss of the arrays the region finds. -/
abbrev lossOf (c : Dev nD) : EReal := Cert.Loss.loss (arrA m c) (arrP m c) (arrN m c) (arrG m c)

/-- The [1,1] result array holding the loss. -/
abbrev result (c : Dev nD) : Buf (Elt Ideal) ((c : Thread nD τ).loc main_v0) := fun _ => lossOf m c

/-- The last point of the grid. -/
abbrev lastPt : Fin cfg0.N := ⟨63, by rw [show cfg0.N = 64 from N_0]; decide⟩

/-- The sum of all the blocks' sums is the sum over all rows. -/
theorem all_blocks (c : Dev nD) :
    Cert.Loss.partialSum (blockSum m c) 62 + blockSum m c ⟨63, by decide⟩
      = ∑ r, Cert.Loss.term (arrA m c) (arrP m c) (arrN m c) (arrG m c) r := by
  rw [← Cert.Loss.partialSum_succ (blockSum m c) 62 (by decide), Cert.Loss.partialSum_last, Cert.Loss.sum_blocks]
  rfl

/-- What the one write-back writes is the loss. -/
theorem flushed_eq (c : Dev nD) (t : Fin cfg0.N) (hf : (cfg0.win 4).flush t = true) :
    (dats m 0 c).flushed 4 t = ((cfg0.win 4).blk t).view.read (Elt Ideal) (result m c) := by
  have hN : cfg0.N = 64 := N_0
  have h63 : t.val % 64 = 63 := (flush0_4 t).mp hf
  have ht : t.val = 63 := by have := t.isLt; omega
  obtain rfl : t = lastPt := Fin.ext ht
  have h0 : ¬(lastPt : Fin cfg0.N).val % 64 = 0 := by decide
  show (cfg0.win 4).cut (grid0.coords lastPt) ((dats m 0 c).after 4 lastPt) = _
  rw [after0_4, outsAt0_C m c lastPt h0 h63]
  dsimp only
  funext y
  rw [View.read_apply]
  refine (congrFun (out_C (F := Ideal) c (grid0.coords lastPt) (ms0_0 lastPt) (hs0_0 lastPt) (ms0_1 lastPt) (hs0_1 lastPt) (ms0_2 lastPt) (hs0_2 lastPt) (ms0_3 lastPt) (hs0_3 lastPt) (ms0_4 lastPt) (hs0_4 lastPt) scM0_0 (Memref.isWhole_whole _) _ _ (blkA m c lastPt) (blkP m c lastPt) (blkN m c lastPt) (blkG m c lastPt) _) y).trans ?_
  rw [mean_apply, update_apply, point_sum]
  show Ideal.div ((outsAt0 m c 62 _).2 y + _) _ = lossOf m c
  rw [acc_eq m c 62]
  exact congrArg (fun s => Ideal.div s Cert.Loss.batch) (all_blocks m c)

/-- So the result array ends holding the loss: the last point's block covers it. -/
theorem final_out (c : Dev nD) : (dats m 0 c).arrAt 4 cfg0.N = result m c :=
  (dats m 0 c).arrAt_eq_of_cover 4 (result m c) (flushed_eq m c) fun i =>
    ⟨lastPt, (flush0_4 lastPt).mpr rfl, by
      show i ∈ ((View.whole main_v0).slice (win0_4.rect lastPt)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index lastPt 0 * win0_4.size 0 ≤ (i 0 : Nat) ∧ (i 0 : Nat) < win0_4.index lastPt 0 * win0_4.size 0 + win0_4.xsize (grid0.coords lastPt) 0
        rw [show win0_4.index lastPt 0 * win0_4.size 0 = 0 from by decide +kernel, show win0_4.xsize (grid0.coords lastPt) 0 = 1 from by decide +kernel]; omega
      | ⟨1, _⟩ =>
        show win0_4.index lastPt 1 * win0_4.size 1 ≤ (i 1 : Nat) ∧ (i 1 : Nat) < win0_4.index lastPt 1 * win0_4.size 1 + win0_4.xsize (grid0.coords lastPt) 1
        rw [show win0_4.index lastPt 1 * win0_4.size 1 = 0 from by decide +kernel, show win0_4.xsize (grid0.coords lastPt) 1 = 1 from by decide +kernel]; omega⟩

/-- The scalar the reshape after the region leaves is the loss. -/
theorem tail_eq (c : Dev nD) :
    Pipeline.afterTail₀ cfgs (dats m) 0 (V0 m) [hostOps1] c main_v1 = fun _ => lossOf m c := by
  unfold Pipeline.afterTail₀
  show StableHlo.after hostOps1 _ (Proc.devRef .tc main_v1) = _
  after_results
  have hw : Pipeline.withArrays (cfgs 0).spec c (V0 m c) (fun w => (dats m 0 c).arrAt w (cfgs 0).N) (Proc.tc.devRef main_v0)
      = result m c :=
    (Pipeline.withArrays_arr spec0 launch0.win.arr_inj c _ _ 4).trans (final_out m c)
  funext i
  show shapeCast S_ (Pipeline.withArrays (cfgs 0).spec c (V0 m c) (fun w => (dats m 0 c).arrAt w (cfgs 0).N)
    (Proc.tc.devRef main_v0)) shapeCasts_S1x1_S_ i = lossOf m c
  rw [hw]
  rfl

/-- The buffer the reshape writes is neither scoped nor a window's array. -/
theorem result_rest : main_v1 ∈ Pipeline.restRefs sig spec0 :=
  Pipeline.mem_restRefs_of main_v1 rfl (fun w => by fin_cases w <;> decide)

/-- The kernel's run, read: the scalar result at the loss of the argument arrays, the arguments unchanged. -/
theorem run : θ_run defs (onTc (τ := τ) (main (F := Ideal))) ⟨m, fun _ => 0, ρ⟩ fun r => ∀ c : Dev nD,
      r.2.mem ((c.tc : Thread nD τ).loc main_v1)
        = (fun _ => Cert.Loss.loss (m ((c.tc : Thread nD τ).loc main_arg0)) (m ((c.tc : Thread nD τ).loc main_arg1))
            (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v1 result_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Acc

end
-- ==== Proof.RefLoss.lean ====
/-
  The reference computes the loss.

  Read one operation at a time, the reference's result at row r is the sample's term of row r: its negations are
  negations, its norm is the square root of the lane sum of squared differences (a sum that starts from the zero
  pattern, which adds nothing), and its squares are products. Its mean is the zero pattern plus the sum of the rows'
  terms, divided by the batch size.
-/
import proofs.«164572_j27144193311431_1_alg».proof.Proof.BlockOps
import proofs.«164572_j27144193311431_1_alg».proof.Proof.Gen.ReferenceIdeal.Read

noncomputable section

open scoped BigOperators

namespace Cert.ReferenceIdeal.RefLoss

open Cert.ReferenceIdeal Cert.ReferenceIdeal.Read Idealize.ShloMosaic Idealize.ShloMosaic.ValueIdx

/-- Row r's entry of ground-truth column 0, through the slice and the reshape. -/
theorem idx_col0 (r : Fin 262144) : idx_main_v0 (idx_main_v1 (ix1 r)) = ix2 r 0 :=
  funext fun a => Fin.ext (by match a with | ⟨0, _⟩ => show r.val / 1 = r.val; omega | ⟨1, _⟩ => rfl)

/-- Row r's entry of ground-truth column 1. -/
theorem idx_col1 (r : Fin 262144) : idx_main_v4 (idx_main_v5 (ix1 r)) = ix2 r 1 :=
  funext fun a => Fin.ext (by match a with | ⟨0, _⟩ => show r.val / 1 = r.val; omega | ⟨1, _⟩ => rfl)

/-- Lane l of row r, in each of the two norms. -/
theorem idx_lane0 (r : Fin 262144) (l : Fin 128) : idx_main_call0_v1 (ix1 r) l = ix2 r l :=
  funext fun a => Fin.ext (by match a with | ⟨0, _⟩ => rfl | ⟨1, _⟩ => rfl)
theorem idx_lane1 (r : Fin 262144) (l : Fin 128) : idx_main_call1_v1 (ix1 r) l = ix2 r l :=
  funext fun a => Fin.ext (by match a with | ⟨0, _⟩ => rfl | ⟨1, _⟩ => rfl)

/-- The per-row vector of the reference, at row r, is row r's term. -/
theorem row_term (x0 x1 x2 : (⟨S262144x128, .f32⟩ : BufTy).Contents (Elt Ideal)) (x3 : (⟨S262144x2, .f32⟩ : BufTy).Contents (Elt Ideal))
    (r : Fin 262144) : val_main_v22 (F := Ideal) x0 x1 x2 x3 (ix1 r) = Cert.Loss.term x0 x1 x2 x3 r := by
  rw [val_main_v22_apply, val_main_v18_apply, val_main_v21_apply, val_main_v17_apply, val_main_v20_apply,
    val_main_v16_apply, val_main_v19_apply, val_main_v3_apply, val_main_v7_apply, val_main_v11_apply, val_main_v15_apply,
    val_main_v2_apply, val_main_v6_apply, val_main_v10_apply, val_main_v14_apply, val_main_v1_apply, val_main_v5_apply,
    val_main_v0_apply, val_main_v4_apply, val_main_v9_apply, val_main_v13_apply, val_main_call0_v1_apply,
    val_main_call1_v1_apply]
  simp only [val_main_call0_v0_apply, val_main_call1_v0_apply, val_main_v8_apply, val_main_v12_apply,
    val_main_call0_cst_apply, val_main_call1_cst_apply, idx_col0, idx_col1, idx_lane0, idx_lane1,
    Ideal.addf_def, Ideal.subf_def, Ideal.mulf_def, Ideal.hostNegf_def, Ideal.negf_def, Ideal.hostUnary_exp_def,
    Ideal.hostUnary_sqrt_def, Ideal.ofBits_def, Cert.Loss.zero_word_add]
  rfl

/-- The rank-1 index set of the batch is its rows. -/
def rowEquiv : Fin 262144 ≃ S262144.Idx where
  toFun r := ix1 r
  invFun j := j 0
  left_inv _ := rfl
  right_inv j := (eq_ix1 j).symm

/-- The reference's result is the loss. -/
theorem result_loss (x0 x1 x2 : (⟨S262144x128, .f32⟩ : BufTy).Contents (Elt Ideal)) (x3 : (⟨S262144x2, .f32⟩ : BufTy).Contents (Elt Ideal)) :
    val_main_v24 (F := Ideal) x0 x1 x2 x3 = fun _ => Cert.Loss.loss x0 x1 x2 x3 := by
  funext i
  have hs : ∑ j : S262144.Idx, val_main_v22 (F := Ideal) x0 x1 x2 x3 j = ∑ r : Fin 262144, Cert.Loss.term x0 x1 x2 x3 r := by
    rw [← Equiv.sum_comp rowEquiv]
    exact Finset.sum_congr rfl fun r _ => row_term x0 x1 x2 x3 r
  rw [val_main_v24_apply, val_main_v23_apply, hs]
  simp only [val_main_cst_apply, val_main_cst_0_apply, Ideal.ofBits_def, Ideal.hostDivf_def, Cert.Loss.zero_word_add]
  rfl

end Cert.ReferenceIdeal.RefLoss

end
-- ==== Proof.lean ====
/-
  A triplet-distance loss over a batch of 262144 samples, streamed in 64 blocks of 4096 rows, against its plain
  reference — equal over the extended reals.

  Per sample both programs compute  D0 (D0 - v0)^2 + D1 (D1 - v1)^2  with  D = exp(-ground truth distance)  and
  v = exp(-Euclidean distance of the embeddings); both average it over the batch. They differ only in how the sum
  over the batch is grouped: the reference adds all 262144 terms at once, the kernel adds each block's 4096 terms and
  accumulates the 64 block sums point by point in a scratch cell, dividing by the batch size at the last point.
  Addition on the extended reals is commutative and associative, so the two groupings are one sum; no finiteness of
  the inputs is used. The kernel writes a negation as a subtraction from zero and starts its accumulator from zero,
  the reference starts its sums from zero: zero subtracts to the negation and adds nothing.

  Proof/Loss.lean states the loss and the regrouping of the sum; Proof/BlockOps.lean and Proof/Payload.lean read the
  kernel's arithmetic at an index; Proof/Pieces.lean says what one point leaves in the accumulator and the output block;
  Proof/Running.lean is the induction over the points; Proof/KernelValue.lean reads the kernel's result;
  Proof/RefLoss.lean reads the reference's. The idealization rewrote nothing, so it preserves trivially.
-/
import proofs.«164572_j27144193311431_1_alg».proof.Defs
import proofs.«164572_j27144193311431_1_alg».proof.Proof.Gen.Kernel
import proofs.«164572_j27144193311431_1_alg».proof.Proof.Gen.Kernel.Skeleton
import proofs.«164572_j27144193311431_1_alg».proof.Proof.Gen.Kernel.Launch
import proofs.«164572_j27144193311431_1_alg».proof.Proof.Gen.Kernel.Points
import proofs.«164572_j27144193311431_1_alg».proof.Proof.Gen.Kernel.Frame
import proofs.«164572_j27144193311431_1_alg».proof.Proof.Gen.KernelIdeal
import proofs.«164572_j27144193311431_1_alg».proof.Proof.Gen.KernelIdeal.Skeleton
import proofs.«164572_j27144193311431_1_alg».proof.Proof.Gen.KernelIdeal.Launch
import proofs.«164572_j27144193311431_1_alg».proof.Proof.Gen.KernelIdeal.Points
import proofs.«164572_j27144193311431_1_alg».proof.Proof.Gen.KernelIdeal.Frame
import proofs.«164572_j27144193311431_1_alg».proof.Proof.Gen.ReferenceIdeal
import proofs.«164572_j27144193311431_1_alg».proof.Proof.Gen.ReferenceIdeal.Run
import proofs.«164572_j27144193311431_1_alg».proof.Proof.Gen.ReferenceIdeal.Read
import proofs.«164572_j27144193311431_1_alg».proof.Proof.Gen.Pre_finite_inputs
import proofs.«164572_j27144193311431_1_alg».proof.Proof.KernelValue
import proofs.«164572_j27144193311431_1_alg».proof.Proof.RefLoss
import Idealize.ShloMosaic.Adequacy
import Idealize.ShloMosaic.Init

noncomputable section

namespace Cert.Proof

open Idealize.ShloMosaic Idealize.SL.Sem

/-- The three programs run and keep their arguments: the two kernels by their generated frames, the reference by its
    run with the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the loss of arguments that agree. -/
theorem algebraic : Cert.algebraic_KernelIdeal_ReferenceIdeal := by
  intro m ρ m' ρ' _ hagree
  refine ⟨fun c => fun _ => Cert.Loss.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefLoss.result_loss,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
